-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x32 : Shape := ⟨2, ![2097152, 32]⟩
abbrev S2097152 : Shape := ⟨1, ![2097152]⟩
abbrev S_ : Shape := ⟨0, ![]⟩

class Facts : Prop where
  bcast_S_S2097152x32 : S_.BroadcastsInDim S2097152x32 (![] : Fin 0 → Fin S2097152x32.rank)
  reducesTo_S2097152x32_S_d0_1 : S2097152x32.ReducesTo [0, 1] S_
  h_S_ : 0 < S_.numel

variable [Facts]

def fn {F : FTy → Type} [FloatOps F] (main_arg0 : FVec F S2097152x32 .f32) (main_arg1 : IVec S2097152 32) (main_arg2 : IVec S2097152 32) : IVec S_ 1 :=
  let main_v0 : FVec F S2097152x32 .f32 := Host.absf main_arg0
  let main_cst : FVec F S_ .f32 := constant S_ .f32 0x7F800000#32
  let main_v1 : FVec F S2097152x32 .f32 := broadcastInDim S2097152x32 ![] bcast_S_S2097152x32 main_cst
  let main_v2 : IVec S2097152x32 1 := cmpf .olt main_v0 main_v1
  let main_c : IVec S_ 1 := constantI S_ 1 1#1
  let main_v3 : IVec S_ 1 := (fun x v => Host.reduce IntOp.andi x v reducesTo_S2097152x32_S_d0_1 h_S_) main_v2 main_c
  main_v3
-- ==== Kernel.lean ====
abbrev S2097152x32 : Shape := ⟨2, ![2097152, 32]⟩
abbrev S2097152 : Shape := ⟨1, ![2097152]⟩
abbrev S_ : Shape := ⟨0, ![]⟩
abbrev S2097152x1 : Shape := ⟨2, ![2097152, 1]⟩
abbrev S1x1 : Shape := ⟨2, ![1, 1]⟩
abbrev S8192x32 : Shape := ⟨2, ![8192, 32]⟩
abbrev S8192x1 : Shape := ⟨2, ![8192, 1]⟩
abbrev S8192 : Shape := ⟨1, ![8192]⟩
abbrev S1 : Shape := ⟨1, ![1]⟩

abbrev nBuf : Space → Nat
  | .hbm => 15
  | .vmem => 8
  | .smem => 0
  | _ => 0

abbrev bufTy : (tb : Table) → Fin (tcTables nBuf tb) → BufTy
  | .hbm, ⟨0, _⟩ => ⟨S2097152x32, .f32⟩
  | .hbm, ⟨1, _⟩ => ⟨S2097152, .i32⟩
  | .hbm, ⟨2, _⟩ => ⟨S2097152, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S2097152, .i32⟩
  | .hbm, ⟨7, _⟩ => ⟨S2097152, .i32⟩
  | .hbm, ⟨8, _⟩ => ⟨S_, .i32⟩
  | .hbm, ⟨9, _⟩ => ⟨S2097152, .i32⟩
  | .hbm, ⟨10, _⟩ => ⟨S2097152, .i32⟩
  | .hbm, ⟨11, _⟩ => ⟨S2097152x1, .i32⟩
  | .hbm, ⟨12, _⟩ => ⟨S2097152x1, .i32⟩
  | .hbm, ⟨13, _⟩ => ⟨S1x1, .f32⟩
  | .hbm, ⟨14, _⟩ => ⟨S_, .f32⟩
  | .local _ .vmem, ⟨0, _⟩ => ⟨S8192x32, .f32⟩
  | .local _ .vmem, ⟨1, _⟩ => ⟨S8192x32, .f32⟩
  | .local _ .vmem, ⟨2, _⟩ => ⟨S8192x1, .i32⟩
  | .local _ .vmem, ⟨3, _⟩ => ⟨S8192x1, .i32⟩
  | .local _ .vmem, ⟨4, _⟩ => ⟨S8192x1, .i32⟩
  | .local _ .vmem, ⟨5, _⟩ => ⟨S8192x1, .i32⟩
  | .local _ .vmem, ⟨6, _⟩ => ⟨S1x1, .f32⟩
  | .local _ .vmem, ⟨7, _⟩ => ⟨S1x1, .f32⟩
  | _, _ => ⟨S2097152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v49 : BitVec 1 := Scalar.cmpi .eq arg0 c255_i32
  let v50 : BitVec 32 := Scalar.extui v49
  let c0_i32_19 : BitVec 32 := 0#32
  let v51 : BitVec 1 := Scalar.cmpi .ne v50 c0_i32_19
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S2097152 : S_.BroadcastsInDim S2097152 (![] : Fin 0 → Fin S2097152.rank)
  shapeCasts_S2097152_S2097152x1 : S2097152.ShapeCasts S2097152x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x32_S8192x32_0_0 : ∀ a, (![0, 0] : Fin 2 → Nat) a + S8192x32.size a ≤ S8192x32.size a
  h_S8192x32 : 0 < S8192x32.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  iota_S8192x32_d1_w32 : S8192x32.Iotas .tc 32 [1]
  broadcasts_S8192x1_S8192x32 : S8192x1.Broadcasts S8192x32
  reduces_S8192x32_S8192 : S8192x32.Reduces [1] S8192
  shapeCasts_S8192_S8192x1 : S8192.ShapeCasts S8192x1
  natLt_1_32 : 1 < 32
  reduces_S8192x1_S1 : S8192x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S2097152x32.size a
  hwx0_0 : ∀ i : grid0.Coords, EltTy.bits .f32 = 32 ∨ (Rect.block (s := S2097152x32) S8192x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S2097152x1.size a
  hwx0_1 : ∀ i : grid0.Coords, EltTy.bits .i32 = 32 ∨ (Rect.block (s := S2097152x1) S8192x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S2097152x1.size a
  hwx0_2 : ∀ i : grid0.Coords, EltTy.bits .i32 = 32 ∨ (Rect.block (s := S2097152x1) S8192x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2097152x32 : Shape := ⟨2, ![2097152, 32]⟩
abbrev S2097152 : Shape := ⟨1, ![2097152]⟩
abbrev S_ : Shape := ⟨0, ![]⟩
abbrev S32 : Shape := ⟨1, ![32]⟩
abbrev S1x32 : Shape := ⟨2, ![1, 32]⟩
abbrev S2097152x1 : Shape := ⟨2, ![2097152, 1]⟩
abbrev S2097152x1x1 : Shape := ⟨3, ![2097152, 1, 1]⟩
abbrev S1 : Shape := ⟨1, ![1]⟩
abbrev S1x1x1 : Shape := ⟨3, ![1, 1, 1]⟩

abbrev nBuf : Space → Nat
  | .hbm => 83
  | .vmem => 0
  | .smem => 0
  | _ => 0

abbrev bufTy : (tb : Table) → Fin (tcTables nBuf tb) → BufTy
  | .hbm, ⟨0, _⟩ => ⟨S2097152x32, .f32⟩
  | .hbm, ⟨1, _⟩ => ⟨S2097152, .i32⟩
  | .hbm, ⟨2, _⟩ => ⟨S2097152, .i32⟩
  | .hbm, ⟨3, _⟩ => ⟨S2097152x32, .f32⟩
  | .hbm, ⟨4, _⟩ => ⟨S2097152x32, .f32⟩
  | .hbm, ⟨5, _⟩ => ⟨S_, .f32⟩
  | .hbm, ⟨6, _⟩ => ⟨S2097152x32, .f32⟩
  | .hbm, ⟨7, _⟩ => ⟨S2097152x32, .f32⟩
  | .hbm, ⟨8, _⟩ => ⟨S_, .f32⟩
  | .hbm, ⟨9, _⟩ => ⟨S2097152x32, .f32⟩
  | .hbm, ⟨10, _⟩ => ⟨S2097152x32, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S2097152, .i32⟩
  | .hbm, ⟨15, _⟩ => ⟨S2097152, .i32⟩
  | .hbm, ⟨16, _⟩ => ⟨S_, .i32⟩
  | .hbm, ⟨17, _⟩ => ⟨S2097152, .i32⟩
  | .hbm, ⟨18, _⟩ => ⟨S2097152, .i32⟩
  | .hbm, ⟨19, _⟩ => ⟨S32, .i32⟩
  | .hbm, ⟨20, _⟩ => ⟨S1x32, .i32⟩
  | .hbm, ⟨21, _⟩ => ⟨S2097152x1, .i32⟩
  | .hbm, ⟨22, _⟩ => ⟨S2097152x32, .i32⟩
  | .hbm, ⟨23, _⟩ => ⟨S2097152x32, .i32⟩
  | .hbm, ⟨24, _⟩ => ⟨S2097152x32, .i1⟩
  | .hbm, ⟨25, _⟩ => ⟨S_, .f32⟩
  | .hbm, ⟨26, _⟩ => ⟨S2097152x32, .f32⟩
  | .hbm, ⟨27, _⟩ => ⟨S2097152x32, .f32⟩
  | .hbm, ⟨28, _⟩ => ⟨S_, .f32⟩
  | .hbm, ⟨29, _⟩ => ⟨S2097152x32, .f32⟩
  | .hbm, ⟨30, _⟩ => ⟨S2097152x32, .f32⟩
  | .hbm, ⟨31, _⟩ => ⟨S2097152x32, .f32⟩
  | .hbm, ⟨32, _⟩ => ⟨S_, .f32⟩
  | .hbm, ⟨33, _⟩ => ⟨S_, .f32⟩
  | .hbm, ⟨34, _⟩ => ⟨S2097152x32, .f32⟩
  | .hbm, ⟨35, _⟩ => ⟨S2097152x32, .f32⟩
  | .hbm, ⟨36, _⟩ => ⟨S_, .f32⟩
  | .hbm, ⟨37, _⟩ => ⟨S2097152, .f32⟩
  | .hbm, ⟨38, _⟩ => ⟨S2097152x1, .i32⟩
  | .hbm, ⟨39, _⟩ => ⟨S_, .i32⟩
  | .hbm, ⟨40, _⟩ => ⟨S2097152x1, .i32⟩
  | .hbm, ⟨41, _⟩ => ⟨S2097152x1, .i1⟩
  | .hbm, ⟨42, _⟩ => ⟨S_, .i32⟩
  | .hbm, ⟨43, _⟩ => ⟨S2097152x1, .i32⟩
  | .hbm, ⟨44, _⟩ => ⟨S2097152x1, .i32⟩
  | .hbm, ⟨45, _⟩ => ⟨S2097152x1, .i32⟩
  | .hbm, ⟨46, _⟩ => ⟨S2097152x1x1, .i32⟩
  | .hbm, ⟨47, _⟩ => ⟨S1, .i32⟩
  | .hbm, ⟨48, _⟩ => ⟨S_, .i32⟩
  | .hbm, ⟨49, _⟩ => ⟨S2097152x1x1, .i32⟩
  | .hbm, ⟨50, _⟩ => ⟨S2097152x1x1, .i1⟩
  | .hbm, ⟨51, _⟩ => ⟨S1x1x1, .i32⟩
  | .hbm, ⟨52, _⟩ => ⟨S2097152x1x1, .i32⟩
  | .hbm, ⟨53, _⟩ => ⟨S2097152x1x1, .i1⟩
  | .hbm, ⟨54, _⟩ => ⟨S2097152x1x1, .i1⟩
  | .hbm, ⟨55, _⟩ => ⟨S_, .i1⟩
  | .hbm, ⟨56, _⟩ => ⟨S2097152x1, .i1⟩
  | .hbm, ⟨57, _⟩ => ⟨S2097152x1, .f32⟩
  | .hbm, ⟨58, _⟩ => ⟨S_, .f32⟩
  | .hbm, ⟨59, _⟩ => ⟨S2097152x1, .f32⟩
  | .hbm, ⟨60, _⟩ => ⟨S2097152x1, .f32⟩
  | .hbm, ⟨61, _⟩ => ⟨S2097152, .f32⟩
  | .hbm, ⟨62, _⟩ => ⟨S_, .i32⟩
  | .hbm, ⟨63, _⟩ => ⟨S2097152, .i32⟩
  | .hbm, ⟨64, _⟩ => ⟨S2097152, .i1⟩
  | .hbm, ⟨65, _⟩ => ⟨S_, .f32⟩
  | .hbm, ⟨66, _⟩ => ⟨S2097152, .f32⟩
  | .hbm, ⟨67, _⟩ => ⟨S2097152, .f32⟩
  | .hbm, ⟨68, _⟩ => ⟨S2097152, .f32⟩
  | .hbm, ⟨69, _⟩ => ⟨S_, .f32⟩
  | .hbm, ⟨70, _⟩ => ⟨S2097152, .f32⟩
  | .hbm, ⟨71, _⟩ => ⟨S2097152, .f32⟩
  | .hbm, ⟨72, _⟩ => ⟨S_, .f32⟩
  | .hbm, ⟨73, _⟩ => ⟨S2097152, .f32⟩
  | .hbm, ⟨74, _⟩ => ⟨S2097152, .f32⟩
  | .hbm, ⟨75, _⟩ => ⟨S2097152, .f32⟩
  | .hbm, ⟨76, _⟩ => ⟨S2097152, .f32⟩
  | .hbm, ⟨77, _⟩ => ⟨S2097152, .f32⟩
  | .hbm, ⟨78, _⟩ => ⟨S2097152, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S2097152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c_1 : Ref sig .tc := ⟨.hbm, 47, rfl⟩
abbrev main_call2_c_2 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_3 : Ref sig .tc := ⟨.hbm, 55, rfl⟩
abbrev main_call2_v12 : Ref sig .tc := ⟨.hbm, 56, rfl⟩
abbrev main_call2_v13 : Ref sig .tc := ⟨.hbm, 57, rfl⟩
abbrev main_call2_cst : Ref sig .tc := ⟨.hbm, 58, rfl⟩
abbrev main_call2_v14 : Ref sig .tc := ⟨.hbm, 59, rfl⟩
abbrev main_v21 : Ref sig .tc := ⟨.hbm, 60, rfl⟩
abbrev main_v22 : Ref sig .tc := ⟨.hbm, 61, rfl⟩
abbrev main_c_6 : Ref sig .tc := ⟨.hbm, 62, rfl⟩
abbrev main_v23 : Ref sig .tc := ⟨.hbm, 63, rfl⟩
abbrev main_v24 : Ref sig .tc := ⟨.hbm, 64, rfl⟩
abbrev main_cst_7 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_8 : Ref sig .tc := ⟨.hbm, 69, rfl⟩
abbrev main_v28 : Ref sig .tc := ⟨.hbm, 70, rfl⟩
abbrev main_v29 : Ref sig .tc := ⟨.hbm, 71, rfl⟩
abbrev main_cst_9 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_cst_10 : Ref sig .tc := ⟨.hbm, 79, rfl⟩
abbrev main_v36 : Ref sig .tc := ⟨.hbm, 80, rfl⟩
abbrev main_cst_11 : Ref sig .tc := ⟨.hbm, 81, rfl⟩
abbrev main_v37 : Ref sig .tc := ⟨.hbm, 82, rfl⟩

abbrev nD : Nat := 1
abbrev τ : Topo := Topo.v7x

variable {F : FTy → Type} [FloatOps F]

class Facts₀ : Prop where
  bcast_S_S2097152x32 : S_.BroadcastsInDim S2097152x32 (![] : Fin 0 → Fin S2097152x32.rank)
  bcast_S_S2097152 : S_.BroadcastsInDim S2097152 (![] : Fin 0 → Fin S2097152.rank)
  bcast_S32_S1x32_1 : S32.BroadcastsInDim S1x32 (![1] : Fin 1 → Fin S1x32.rank)
  bcast_S2097152_S2097152x1_0 : S2097152.BroadcastsInDim S2097152x1 (![0] : Fin 1 → Fin S2097152x1.rank)
  bcast_S1x32_S2097152x32_0_1 : S1x32.BroadcastsInDim S2097152x32 (![0, 1] : Fin 2 → Fin S2097152x32.rank)
  bcast_S2097152x1_S2097152x32_0_1 : S2097152x1.BroadcastsInDim S2097152x32 (![0, 1] : Fin 2 → Fin S2097152x32.rank)
  reducesTo_S2097152x32_S2097152_d1 : S2097152x32.ReducesTo [1] S2097152
  h_S_ : 0 < S_.numel
  bcast_S_S2097152x1 : S_.BroadcastsInDim S2097152x1 (![] : Fin 0 → Fin S2097152x1.rank)
  shapeCasts_S2097152x1_S2097152x1x1 : S2097152x1.ShapeCasts S2097152x1x1
  bcast_S_S2097152x1x1 : S_.BroadcastsInDim S2097152x1x1 (![] : Fin 0 → Fin S2097152x1x1.rank)
  bcast_S1_S1x1x1_2 : S1.BroadcastsInDim S1x1x1 (![2] : Fin 1 → Fin S1x1x1.rank)
  bcast_S1x1x1_S2097152x1x1_0_1_2 : S1x1x1.BroadcastsInDim S2097152x1x1 (![0, 1, 2] : Fin 3 → Fin S2097152x1x1.rank)
  reducesTo_S2097152x1x1_S2097152x1_d2 : S2097152x1x1.ReducesTo [2] S2097152x1
  shapeCasts_S2097152x1_S2097152 : S2097152x1.ShapeCasts S2097152
  reducesTo_S2097152_S_d0 : S2097152.ReducesTo [0] S_
  gather_S2097152x32_S2097152x1x1_S2097152x1_n_1_0_0_1_2_11_wf : GatherDims.WF S2097152x32 S2097152x1x1 S2097152x1 [] [1] [0] [1] [0] 2 ![1, 1]

variable [Facts₀]

def gather_S2097152x32_S2097152x1x1_S2097152x1_n_1_0_0_1_2_11 : GatherDims S2097152x32 S2097152x1x1 S2097152x1 where
  offsetDims := []
  collapsedSliceDims := [1]
  operandBatchingDims := [0]
  startIndicesBatchingDims := [0]
  startIndexMap := [1]
  indexVectorDim := 2
  sliceSizes := ![1, 1]
  wf := gather_S2097152x32_S2097152x1x1_S2097152x1_n_1_0_0_1_2_11_wf

class Facts : Prop extends Facts₀ where

variable [Facts]
-- ==== Proof.KernelPieces.lean ====
/-
  What each case of the kernel body leaves behind, as a value: the running total in the carried one-word accumulator, and, at
  the grid's last point, the output word.

  The body adds the block's partial sum to the accumulator: at the first point over the zero it has just stored there, at every
  later point over what the point before left; at the last point it also stores the accumulator times the constant `2⁻²¹` as
  the output. So over the input blocks `x₀` (scores), `x₁` (time bins), `x₂` (event flags) and the earlier contents `a`:
  the accumulator ends at `a + partial x₀ x₁ x₂` (with `a` the stored zero at the first point), the output at that times the
  constant. Here these are stated over the body's arithmetic as one pure term, for every float instance.
-/
import proofs.«413996_j34892314313021_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

/-- The zero offsets of a whole rank-2 buffer, spelt as a function. -/
theorem zeros2 : (![0, 0] : Fin 2 → Nat) = fun _ => 0 := funext fun a => by fin_cases a <;> rfl

/-- The accumulator after one point, from its contents `a` before: `a` plus the block's partial sum. -/
abbrev step (x0 : Vec F S8192x32 .f32) (x1 x2 : Vec F S8192x1 .i32) (a : Vec F S1x1 .f32) : Vec F S1x1 .f32 :=
  k0_pay1 (k0_pay4 x0 x1 x2) (Scalar.ofBits .f32 0x00000000#32) a

/-- FIRST POINT: the accumulator is zeroed, read back, and left at zero plus the block's partial sum. -/
theorem scratch_first (c : Dev nD) (i : grid0.Coords) (a1 : Memref sig .tc .vmem S8192x32 .f32) (h1 : a1.IsWhole) (a2 : Memref sig .tc .vmem S8192x1 .i32) (h2 : a2.IsWhole) (a3 : Memref sig .tc .vmem S8192x1 .i32) (h3 : a3.IsWhole) (a4 : Memref sig .tc .vmem S1x1 .f32) (h4 : a4.IsWhole) (a5 : Memref sig .tc .vmem S1x1 .f32) (h5 : a5.IsWhole) (hc0 : cond0_0 i) (hc1 : ¬cond0_1 i)
    (x0 : Vec F S8192x32 .f32) (x1 : Vec F S8192x1 .i32) (x2 : Vec F S8192x1 .i32) :
    sout0_A_0 c i a1 h1 a2 h2 a3 h3 a4 h4 a5 h5 hc0 hc1 x0 x1 x2 = step x0 x1 x2 (k0_pay3 (F := F)) := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) zeros2, View.readCov_unit_zero (S := S1x1) _ zeros2]
  simp only [View.readAt_eq_ld, h1.read_unread, h2.read_unread, h3.read_unread, View.ld_unit_zero (S := S8192x32) zeros2,
    View.ld_unit_zero (S := S8192x1) zeros2]

/-- A MIDDLE POINT: the accumulator is left at what the point before left plus the block's partial sum. -/
theorem scratch_mid (c : Dev nD) (i : grid0.Coords) (a1 : Memref sig .tc .vmem S8192x32 .f32) (h1 : a1.IsWhole) (a2 : Memref sig .tc .vmem S8192x1 .i32) (h2 : a2.IsWhole) (a3 : Memref sig .tc .vmem S8192x1 .i32) (h3 : a3.IsWhole) (a4 : Memref sig .tc .vmem S1x1 .f32) (h4 : a4.IsWhole) (a5 : Memref sig .tc .vmem S1x1 .f32) (h5 : a5.IsWhole) (hc0 : ¬cond0_0 i) (hc1 : ¬cond0_1 i)
    (x0 : Vec F S8192x32 .f32) (x1 : Vec F S8192x1 .i32) (x2 : Vec F S8192x1 .i32) (xs : Vec F S1x1 .f32) :
    sout0_B_0 c i a1 h1 a2 h2 a3 h3 a4 h4 a5 h5 hc0 hc1 x0 x1 x2 xs = step x0 x1 x2 xs := by
  unfold sout0_B_0
  rw [View.read_writes_eq_canon _ _ _ (scover0_B_0 c i a1 h1 a2 h2 a3 h3 a4 h4 a5 h5 hc0 hc1 x0 x1 x2 xs)]
  unfold kernelRun0_B
  dsimp only
  sl_unfold_words
  rw [View.canon_unit_zero zeros2]
  simp only [View.readAt_eq_ld, h1.read_unread, h2.read_unread, h3.read_unread, h5.read_unread,
    View.ld_unit_zero (S := S8192x32) zeros2, View.ld_unit_zero (S := S8192x1) zeros2, View.ld_unit_zero (S := S1x1) zeros2]

/-- THE LAST POINT, the accumulator: as at a middle point. -/
theorem scratch_last (c : Dev nD) (i : grid0.Coords) (a1 : Memref sig .tc .vmem S8192x32 .f32) (h1 : a1.IsWhole) (a2 : Memref sig .tc .vmem S8192x1 .i32) (h2 : a2.IsWhole) (a3 : Memref sig .tc .vmem S8192x1 .i32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i)
    (x0 : Vec F S8192x32 .f32) (x1 : Vec F S8192x1 .i32) (x2 : Vec F S8192x1 .i32) (xs : Vec F S1x1 .f32) :
    sout0_C_0 c i a1 h1 a2 h2 a3 h3 a4 h4 a5 h5 hc0 hc1 x0 x1 x2 xs = step x0 x1 x2 xs := by
  unfold sout0_C_0
  rw [View.read_writes_eq_canon _ _ _ (scover0_C_0 c i a1 h1 a2 h2 a3 h3 a4 h4 a5 h5 hc0 hc1 x0 x1 x2 xs)]
  unfold kernelRun0_C
  dsimp only
  sl_unfold_words
  rw [View.canon_unit_zero zeros2]
  simp only [View.readAt_eq_ld, h1.read_unread, h2.read_unread, h3.read_unread, h5.read_unread,
    View.ld_unit_zero (S := S8192x32) zeros2, View.ld_unit_zero (S := S8192x1) zeros2, View.ld_unit_zero (S := S1x1) zeros2]

/-- THE LAST POINT, the output: the accumulator just stored, read back, times the constant. -/
theorem out_last (c : Dev nD) (i : grid0.Coords) (a1 : Memref sig .tc .vmem S8192x32 .f32) (h1 : a1.IsWhole) (a2 : Memref sig .tc .vmem S8192x1 .i32) (h2 : a2.IsWhole) (a3 : Memref sig .tc .vmem S8192x1 .i32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i)
    (x0 : Vec F S8192x32 .f32) (x1 : Vec F S8192x1 .i32) (x2 : Vec F S8192x1 .i32) (xs : Vec F S1x1 .f32) :
    out0_C_3 c i a1 h1 a2 h2 a3 h3 a4 h4 a5 h5 hc0 hc1 x0 x1 x2 xs = k0_pay2 (step x0 x1 x2 xs) := by
  unfold out0_C_3
  rw [View.read_writes_eq_canon _ _ _ (cover0_C_3 c i a1 h1 a2 h2 a3 h3 a4 h4 a5 h5 hc0 hc1 x0 x1 x2 xs)]
  unfold kernelRun0_C
  dsimp only
  sl_unfold_words
  rw [View.canon_unit_zero zeros2, View.readCov_unit_zero (S := S1x1) _ zeros2]
  simp only [View.readAt_eq_ld, h1.read_unread, h2.read_unread, h3.read_unread, h5.read_unread,
    View.ld_unit_zero (S := S8192x32) zeros2, View.ld_unit_zero (S := S8192x1) zeros2, View.ld_unit_zero (S := S1x1) zeros2]

end Cert.KernelIdeal.Acc

end
-- ==== Proof.KernelAcc.lean ====
/-
  The carried accumulator point by point, and the output word.

  After grid point `n` the one-word accumulator holds the running total: the stored zero plus the partial sums of blocks `0 … n`,
  added in that order — by induction on the point over what each case of the body leaves. The last point writes the total
  times `2⁻²¹` into the output, which is written back there and only there: so the output array ends at that word.
-/
import proofs.«413996_j34892314313021_3_alg».proof.Proof.KernelPieces

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-- The three input blocks at a grid point, at their literal types: 8192 rows of scores, of clipped bins, of event flags. -/
abbrev xblk (c : Dev nD) (t : Fin cfg0.N) : Vec F S8192x32 .f32 := iblk m c 0 t
abbrev tblk (c : Dev nD) (t : Fin cfg0.N) : Vec F S8192x1 .i32 := iblk m c 1 t
abbrev eblk (c : Dev nD) (t : Fin cfg0.N) : Vec F S8192x1 .i32 := iblk m c 2 t

/-- The running total after point `n`: the stored zero plus block 0's partial sum, then plus block `n`'s. -/
def total (c : Dev nD) : (n : ℕ) → n < cfg0.N → Vec F S1x1 .f32
  | 0, h => step (xblk m c ⟨0, h⟩) (tblk m c ⟨0, h⟩) (eblk m c ⟨0, h⟩) (k0_pay3 (F := F))
  | n + 1, h => step (xblk m c ⟨n + 1, h⟩) (tblk m c ⟨n + 1, h⟩) (eblk m c ⟨n + 1, h⟩) (total c n (Nat.lt_of_succ_lt h))

/-- What the accumulator holds after point `n` IS the running total — by induction on the point. -/
theorem scratch_eq (c : Dev nD) : ∀ (n : ℕ) (h : n < cfg0.N), (outsAt0 m c n h).2 = total m c n h
  | 0, h => by
    rw [outsAt0_A m c ⟨0, h⟩ rfl (by show ¬(0 % 256 = 255); decide)]
    dsimp only
    exact scratch_first (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (iblk m c 0 ⟨0, h⟩) (iblk m c 1 ⟨0, h⟩) (iblk m c 2 ⟨0, h⟩)
  | n + 1, h => by
    have hN : cfg0.N = 256 := N_0
    have h0 : ¬(⟨n + 1, h⟩ : Fin cfg0.N).val % 256 = 0 := by dsimp only; omega
    by_cases h1 : (⟨n + 1, h⟩ : Fin cfg0.N).val % 256 = 255
    · rw [outsAt0_C m c ⟨n + 1, h⟩ h0 h1]
      dsimp only
      refine (scratch_last (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) _).trans ?_
      show step _ _ _ (outsAt0 m c n _).2 = step _ _ _ (total m c n _)
      rw [scratch_eq c n]
    · rw [outsAt0_B m c ⟨n + 1, h⟩ h0 h1]
      dsimp only
      refine (scratch_mid (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) _).trans ?_
      show step _ _ _ (outsAt0 m c n _).2 = step _ _ _ (total m c n _)
      rw [scratch_eq c n]

/-- At the last point the output's staging word is the running total there times the constant. -/
theorem out_eq (c : Dev nD) (n : ℕ) (h : n + 1 < cfg0.N) (hl : (n + 1) % 256 = 255) :
    (outsAt0 m c (n + 1) h).1 = k0_pay2 (total m c (n + 1) h) := by
  have hN : cfg0.N = 256 := N_0
  have h0 : ¬(⟨n + 1, h⟩ : Fin cfg0.N).val % 256 = 0 := by dsimp only; omega
  rw [outsAt0_C m c ⟨n + 1, h⟩ h0 hl]
  dsimp only
  refine (out_last (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) _).trans ?_
  show k0_pay2 (step _ _ _ (outsAt0 m c n _).2) = k0_pay2 (step _ _ _ (total m c n _))
  rw [scratch_eq m c n]

end Cert.KernelIdeal.Acc

end
-- ==== Proof.KernelValue.lean ====
/-
  The kernel's run, read: its scalar result is the output word, which is the running total after the last grid point times
  `2⁻²¹`.

  The output window's one block is the whole `[1, 1]` array and is written back at the last point only, with what the body stored
  there; the line after the region reshapes that array to the scalar.
-/
import proofs.«413996_j34892314313021_3_alg».proof.Proof.KernelAcc
import Idealize.ShloMosaic.Lib.StableHlo.Run

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-- The grid's last point. -/
abbrev tLast : Fin cfg0.N := ⟨255, by rw [show cfg0.N = 256 from N_0]; decide⟩

/-- The output array's final contents: the total after the last point, times the constant. -/
abbrev result (c : Dev nD) : Buf (Elt F) ((c : Thread nD τ).loc main_v3) := k0_pay2 (total m c 255 tLast.isLt)

/-- The one write-back, at the last point, writes it: block (0, 0) of the `[1, 1]` array read through zero offsets is the array. -/
theorem flushed_eq (c : Dev nD) (t : Fin cfg0.N) (hf : (cfg0.win 3).flush t = true) :
    (dats m 0 c).flushed 3 t = ((cfg0.win 3).blk t).view.read (Elt F) (result m c) := by
  have hN : cfg0.N = 256 := N_0
  have h3 : t.val = 255 := by have := (flush0_3 t).mp hf; have := t.isLt; omega
  obtain rfl : t = tLast := Fin.ext h3
  show (cfg0.win 3).cut (grid0.coords tLast) ((dats m 0 c).after 3 tLast) = _
  rw [after0_3]
  rw [show (outsAt0 m c tLast.val tLast.isLt).1 = k0_pay2 (total m c 255 tLast.isLt) from out_eq m c 254 tLast.isLt (by decide)]
  have hz' : (fun a => win0_3.index tLast a * main_v3.ty.shape.size a) = fun _ => 0 := funext fun a => by fin_cases a <;> decide +kernel
  exact (Memref.read_access_unit_zero (Elt F) main_v3 hz' (fun a => by rw [congrFun hz' a]; simp) (result m c)).symm

/-- So the output array ends holding it: the last point's block covers the array. -/
theorem final (c : Dev nD) : (dats m 0 c).arrAt 3 cfg0.N = result m c :=
  (dats m 0 c).arrAt_eq_of_cover 3 (result m c) (flushed_eq m c) fun i =>
    ⟨tLast, (flush0_3 tLast).mpr (by decide), by
      show i ∈ ((View.whole main_v3).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The line after the region: the scalar result is the output array reshaped. -/
theorem tail_eq (c : Dev nD) :
    Pipeline.afterTail₀ cfgs (dats m) 0 (V0 m) [hostOps1] c main_v4 = shapeCast S_ (result m c) shapeCasts_S1x1_S_ := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = result m c := (Pipeline.withArrays_arr spec0 launch0.win.arr_inj c _ _ 3).trans (final m c)
  exact congrArg (fun v : Buf (Elt F) ((c : Thread nD τ).loc main_v3) => shapeCast S_ v shapeCasts_S1x1_S_) e

/-- THE RUN, READ: every weakly fair execution terminates with the scalar result at the output word reshaped, and the three
    argument arrays unchanged. -/
theorem run : θ_run defs (onTc (τ := τ) (main (F := F))) ⟨m, fun _ => 0, ρ⟩ fun r => ∀ c : Dev nD,
      r.2.mem ((c.tc : Thread nD τ).loc main_v4) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Acc

end
-- ==== Proof.Spec.lean ====
/-
  The discrete-hazard survival loss as ONE function of the three argument arrays, over the extended reals.

  For a row with scores `x₀ … x₃₁`, a time bin `t` and an event flag `e`: the hazards are `hⱼ = 1 / (1 + exp (-xⱼ))`, the bin is
  clipped into `[0, 31]`, the log-survival is the sum of `log (1 - hⱼ + ε)` over the bins strictly before the clipped bin, the
  hazard at the clipped bin enters as `log (h + ε)` when the event flag is one and as `log (1 - h + ε)` otherwise, and the row's
  loss is minus the sum of the two. The result is the mean of the rows' losses: their sum times `2⁻²¹`, there being `2²¹` rows.
-/
import Idealize.ShloMosaic.PureOps.Ideal
import Idealize.ShloMosaic.PureOps.Ideal.Laws
import Idealize.ShloMosaic.Lib.ValueIdx

noncomputable section

open scoped BigOperators

namespace Cert.Hazard

open Idealize.ShloMosaic Idealize.ShloMosaic.ValueIdx

/-- The scores: one row of 32 per sample. -/
abbrev SX : Shape := ⟨2, ![2097152, 32]⟩
/-- One word per sample. -/
abbrev SN : Shape := ⟨1, ![2097152]⟩
/-- The scalar shape. -/
abbrev S0 : Shape := ⟨0, ![]⟩

/-- The words `1.0` and `1e-7` (the latter's nearest single-precision value) as extended reals: both programs spell the same
    two words, so neither is ever evaluated. -/
abbrev one : EReal := Ideal.ofBits .f32 0x3F800000#32
abbrev eps : EReal := Ideal.ofBits .f32 0x33D6BF95#32

/-- A time bin clipped into `[0, 31]`, as signed 32-bit words: the larger of it and 0, then the smaller of that and 31. -/
def bin (t : BitVec 32) : BitVec 32 := IntOp.minsi 31#32 (IntOp.maxsi 0#32 t)

/-- The clipped bin is a signed word between 0 and 31. -/
theorem bin_range (t : BitVec 32) : 0 ≤ (bin t).toInt ∧ (bin t).toInt ≤ 31 := by
  unfold bin IntOp.minsi IntOp.maxsi
  simp only [BitVec.slt]
  have e0 : (0#32 : BitVec 32).toInt = 0 := by decide
  have e31 : (31#32 : BitVec 32).toInt = 31 := by decide
  split <;> split <;> simp_all <;> omega

/-- The column a word names: the word read signed and clamped into `[0, 31]`. -/
def col (b : BitVec 32) : Fin 32 := ⟨min b.toInt.toNat 31, by omega⟩

/-- The log-survival of a row whose clipped bin is `b`: `log (1 - hⱼ + ε)` summed over the bins `j` strictly before `b`. -/
def logSurv (xr : Fin 32 → EReal) (b : BitVec 32) : EReal :=
  ∑ j : Fin 32, Scalar.select (IntOp.cmpi .slt (BitVec.ofNat 32 j.val) b) (Ideal.log (one - Ideal.logistic (xr j) + eps)) 0

/-- The event term of a row: the hazard at the clipped bin, as an event or as a censoring. -/
def eventTerm (xr : Fin 32 → EReal) (b e : BitVec 32) : EReal :=
  Scalar.select (IntOp.cmpi .eq e 1#32) (Ideal.log (Ideal.logistic (xr (col b)) + eps))
    (Ideal.log (one - Ideal.logistic (xr (col b)) + eps))

/-- A row's log-likelihood, of its scores, its clipped bin and its event flag; its loss is the negation. -/
def rowLogLik (xr : Fin 32 → EReal) (b e : BitVec 32) : EReal := logSurv xr b + eventTerm xr b e

/-- Row `n`'s log-likelihood, of the argument arrays. -/
def rowAt (x : SX.Idx → EReal) (tb ev : SN.Idx → BitVec 32) (n : Fin 2097152) : EReal :=
  rowLogLik (fun j => x (ix2 n j)) (bin (tb (ix1 n))) (ev (ix1 n))

/-- THE RESULT: the mean loss, the sum over the rows of minus the row's log-likelihood, times `2⁻²¹`. -/
def meanLoss (x : SX.Idx → EReal) (tb ev : SN.Idx → BitVec 32) : S0.Idx → EReal :=
  fun _ => (∑ n : Fin 2097152, -(rowAt x tb ev n)) * Ideal.ofBits .f32 0x35000000#32

end Cert.Hazard

end
-- ==== Proof.Algebra.lean ====
/-
  The algebra that joins the two programs' arrangements of the mean loss.

  A sum over the 2²¹ rows is the sum over 256 tiles of the sums over each tile's 8192 rows (addition of extended reals is
  commutative and associative, so no finiteness is needed); a row's hazards weighted by the indicator of "bin `j` is the clipped
  bin" sum to the hazard at the clipped bin; and division by `2²¹` is multiplication by `2⁻²¹` on every extended real, both words
  denoting those powers of two exactly.
-/
import proofs.«413996_j34892314313021_3_alg».proof.Proof.Spec

noncomputable section

open scoped BigOperators

namespace Cert.Hazard

open Idealize.ShloMosaic Idealize.ShloMosaic.ValueIdx

/-! ## Tiles -/

/-- The rows as 256 tiles of 8192: row `s · 8192 + r` is row `r` of tile `s`. -/
def tileRow (s : Fin 256) (r : Fin 8192) : Fin 2097152 := ⟨s.val * 8192 + r.val, by have := s.isLt; have := r.isLt; omega⟩

/-- A sum over all rows is the sum over the tiles of the sums over a tile's rows. -/
theorem sum_rows_eq_sum_tiles {M : Type*} [AddCommMonoid M] (f : Fin 2097152 → M) :
    ∑ n : Fin 2097152, f n = ∑ s : Fin 256, ∑ r : Fin 8192, f (tileRow s r) := by
  have e : ∑ n : Fin (256 * 8192), f n = ∑ p : Fin 256 × Fin 8192, f (finProdFinEquiv p) :=
    (Equiv.sum_comp (finProdFinEquiv (m := 256) (n := 8192)) f).symm
  refine e.trans ?_
  rw [Fintype.sum_prod_type]
  refine Finset.sum_congr rfl fun s _ => Finset.sum_congr rfl fun r _ => congrArg f (Fin.ext ?_)
  show r.val + 8192 * s.val = s.val * 8192 + r.val
  omega

/-- A sum over the rank-1 index set is the sum over its coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-! ## The hazard at the clipped bin as a weighted sum -/

/-- The word "bin `k` equals `b`", widened and read as an integer, is the indicator of `k` being the column `b` names, for a
    word `b` between 0 and 31. -/
theorem onehot_toInt (b : BitVec 32) (hb0 : 0 ≤ b.toInt) (hb1 : b.toInt ≤ 31) (k : Fin 32) :
    ((IntOp.cmpi .eq (BitVec.ofNat 32 k.val) b).setWidth 32).toInt = if k = col b then 1 else 0 := by
  have hk := k.isLt
  have hbn : b.toInt = (b.toNat : ℤ) := by
    rw [BitVec.toInt_eq_toNat_cond] at hb0 ⊢
    have := b.isLt
    split_ifs at hb0 ⊢ <;> omega
  have hbN : b.toNat ≤ 31 := by omega
  have hcol : (col b).val = b.toNat := by
    show min b.toInt.toNat 31 = b.toNat
    rw [hbn, Int.toNat_natCast]; omega
  have hiff : (BitVec.ofNat 32 k.val == b) = decide (k = col b) := by
    rw [Bool.eq_iff_iff, beq_iff_eq, decide_eq_true_iff]
    constructor
    · intro h
      apply Fin.ext
      rw [hcol, ← h, BitVec.toNat_ofNat]
      exact (Nat.mod_eq_of_lt (by omega)).symm
    · intro h
      apply BitVec.eq_of_toNat_eq
      rw [BitVec.toNat_ofNat, h, hcol]
      exact Nat.mod_eq_of_lt (by omega)
  unfold IntOp.cmpi
  simp only [hiff]
  by_cases hc : k = col b
  · rw [if_pos hc, decide_eq_true hc]; decide
  · rw [if_neg hc, decide_eq_false hc]; decide

/-- So the hazards weighted by that indicator sum to the hazard at the column the clipped bin names. -/
theorem sum_onehot (h : Fin 32 → EReal) (b : BitVec 32) (hb0 : 0 ≤ b.toInt) (hb1 : b.toInt ≤ 31) :
    ∑ k : Fin 32, h k * (((((IntOp.cmpi .eq (BitVec.ofNat 32 k.val) b).setWidth 32).toInt : ℤ) : ℝ) : EReal) = h (col b) := by
  rw [Finset.sum_eq_single (col b)]
  · rw [onehot_toInt b hb0 hb1, if_pos rfl]; simp
  · intro k _ hk
    rw [onehot_toInt b hb0 hb1, if_neg hk]; simp
  · intro hn; exact absurd (Finset.mem_univ _) hn

/-! ## A word between 0 and 31 as an index into 32 columns -/

/-- Wrapping a negative index by 32 leaves a nonnegative word as it is. -/
theorem select_wrap (b : BitVec 32) (hb0 : 0 ≤ b.toInt) :
    Scalar.select (IntOp.cmpi .slt b 0#32) (IntOp.addi b 32#32) b = b := by
  have h : b.slt 0#32 = false := by
    rw [BitVec.slt, decide_eq_false_iff_not, show (0#32 : BitVec 32).toInt = 0 from by decide]; omega
  show Scalar.select (BitVec.ofBool (b.slt 0#32)) _ b = b
  rw [h]; rfl

/-- Such a word is at least 0 … -/
theorem sge_zero (b : BitVec 32) (hb0 : 0 ≤ b.toInt) : IntOp.cmpi .sge b 0#32 = 1#1 := by
  have h : (0#32 : BitVec 32).sle b = true := by
    rw [BitVec.sle, decide_eq_true_iff, show (0#32 : BitVec 32).toInt = 0 from by decide]; exact hb0
  show BitVec.ofBool ((0#32 : BitVec 32).sle b) = 1#1
  rw [h]; rfl

/-- … and at most 31, as signed comparisons say it. -/
theorem sle_31 (b : BitVec 32) (hb1 : b.toInt ≤ 31) : IntOp.cmpi .sle b 31#32 = 1#1 := by
  have h : b.sle 31#32 = true := by
    rw [BitVec.sle, decide_eq_true_iff, show (31#32 : BitVec 32).toInt = 31 from by decide]; exact hb1
  show BitVec.ofBool (b.sle 31#32) = 1#1
  rw [h]; rfl

/-- A fold of `and` over words that are all one, from one, is one. -/
theorem foldl_andi_one {ι : Type} (x : ι → BitVec 1) (hx : ∀ i, x i = 1#1) :
    ∀ (l : List ι) (a : BitVec 1), a = 1#1 → l.foldl (fun r i => IntOp.andi r (x i)) a = 1#1
  | [], _, h => h
  | i :: l, a, h => foldl_andi_one x hx l _ (by
      subst h
      show IntOp.andi 1#1 (x i) = 1#1
      rw [hx i]; rfl)

/-! ## The two powers of two -/

/-- The divisor word denotes `2²¹`, the number of rows. -/
theorem ofBits_rows : Ideal.ofBits .f32 0x4A000000#32 = ((2097152 : ℝ) : EReal) := by
  simp [Ideal.ofBits, Ideal.ieee, -EReal.coe_mul]; norm_num

/-- The factor word denotes `2⁻²¹`. -/
theorem ofBits_inv_rows : Ideal.ofBits .f32 0x35000000#32 = ((1 / 2097152 : ℝ) : EReal) := by
  simp [Ideal.ofBits, Ideal.ieee, -EReal.coe_mul]; norm_num

/-- Dividing by the number of rows is multiplying by its reciprocal, on every extended real. -/
theorem div_rows (x : EReal) : Ideal.div x (Ideal.ofBits .f32 0x4A000000#32) = x * Ideal.ofBits .f32 0x35000000#32 := by
  rw [ofBits_rows, ofBits_inv_rows, Ideal.div_coe (by norm_num)]

end Cert.Hazard

end
-- ==== Proof.KernelBlocks.lean ====
/-
  What the three input windows hold at a grid point, in terms of the argument arrays.

  The grid's point `t` stages rows `t · 8192 … t · 8192 + 8191`: of the scores, of the bins column and of the flags column. The
  bins column is the time-bin argument clipped into `[0, 31]` and reshaped to one column by the lines before the region; the flags
  column is the event argument reshaped.
-/
import proofs.«413996_j34892314313021_3_alg».proof.Proof.KernelValue
import proofs.«413996_j34892314313021_3_alg».proof.Proof.Algebra
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Hazard

variable {F : FTy → Type} [FloatOps F]
variable (m : (ℓ : Loc nD τ sig) → Buf (Elt F) ℓ) (ρ : Dev nD → PrngReg)

/-- Row `r` of the block at grid point `t`, among all rows. -/
def rowOf (t : Fin cfg0.N) (r : Fin 8192) : Fin 2097152 :=
  ⟨t.val * 8192 + r.val, by
    have ht : t.val < 256 := lt_of_lt_of_eq t.isLt (show cfg0.N = 256 from N_0)
    have := r.isLt
    omega⟩

/-- Each input window's block index at point `t` is `(t, 0)`: decided over the grid. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

/-- The scores block at `(r, k)`: the scores array at row `t · 8192 + r`, lane `k`. -/
theorem xblk_apply (c : Dev nD) (t : Fin cfg0.N) (r : Fin 8192) (k : Fin 32) :
    xblk m c t (ix2 r k) = V m c main_arg0 (ix2 (rowOf t r) k) := by
  have hi := index0 t
  unfold xblk iblk
  rw [View.read_apply]
  show V m c main_arg0 _ = V m c main_arg0 _
  refine congrArg (V m c main_arg0) (funext fun a => Fin.ext ?_)
  match a with
  | ⟨0, _⟩ => show win0_0.index t 0 * 8192 + 1 * r.val = t.val * 8192 + r.val; rw [hi.1]; omega
  | ⟨1, _⟩ => show win0_0.index t 1 * 32 + 1 * k.val = k.val; rw [hi.2]; omega

/-- The bins block at row `r`: the bins column at row `t · 8192 + r`. -/
theorem tblk_apply (c : Dev nD) (t : Fin cfg0.N) (r : Fin 8192) :
    tblk m c t (ix2 r (0 : Fin 1)) = V m c main_v1 (ix2 (rowOf t r) (0 : Fin 1)) := by
  have hi := index1 t
  unfold tblk iblk
  rw [View.read_apply]
  show V m c main_v1 _ = V m c main_v1 _
  refine congrArg (V m c main_v1) (funext fun a => Fin.ext ?_)
  match a with
  | ⟨0, _⟩ => show win0_1.index t 0 * 8192 + 1 * r.val = t.val * 8192 + r.val; rw [hi.1]; omega
  | ⟨1, _⟩ => show win0_1.index t 1 * 1 + 1 * 0 = 0; rw [hi.2]

/-- The flags block at row `r`: the flags column at row `t · 8192 + r`. -/
theorem eblk_apply (c : Dev nD) (t : Fin cfg0.N) (r : Fin 8192) :
    eblk m c t (ix2 r (0 : Fin 1)) = V m c main_v2 (ix2 (rowOf t r) (0 : Fin 1)) := by
  have hi := index2 t
  unfold eblk iblk
  rw [View.read_apply]
  show V m c main_v2 _ = V m c main_v2 _
  refine congrArg (V m c main_v2) (funext fun a => Fin.ext ?_)
  match a with
  | ⟨0, _⟩ => show win0_2.index t 0 * 8192 + 1 * r.val = t.val * 8192 + r.val; rw [hi.1]; omega
  | ⟨1, _⟩ => show win0_2.index t 1 * 1 + 1 * 0 = 0; rw [hi.2]

/-- A vector of all rows reshaped to one column, at row `n`: the vector at `n`. -/
theorem col_of_rows {α : Type} (v : S2097152.Idx → α) (h : S2097152.ShapeCasts S2097152x1) (n : Fin 2097152) :
    shapeCast S2097152x1 v h (ix2 n (0 : Fin 1)) = v (ix1 n) :=
  shapeCast_apply v h (ix2 n 0) (ix1 n) (by
    rw [Shape.rowMajor_val_one, Shape.rowMajor_val_two]; show n.val = n.val * 1 + 0; omega)

/-- The bins column the region finds: the time bins clipped into `[0, 31]`, as a column. -/
theorem bins_col (c : Dev nD) (n : Fin 2097152) :
    (V m c main_v1 : S2097152x1.Idx → BitVec 32) (ix2 n (0 : Fin 1)) = bin (m ((c : Thread nD τ).loc main_arg1) (ix1 n)) := by
  dsimp only [V, V0]
  simp only [hostOps0, hostOps0_1, hostOps0_2, List.flatten_cons, List.flatten_nil, List.append_nil, List.cons_append,
    List.nil_append]
  after_results
  simp only [StableHlo.TRef.ofBuf, StableHlo.TRef.toBuf, cast_eq]
  show shapeCast S2097152x1 (minsi (broadcastInDim S2097152 ![] bcast_S_S2097152 (id (constantI S_ 32 31#32)))
    (maxsi (broadcastInDim S2097152 ![] bcast_S_S2097152 (id (constantI S_ 32 0#32))) (m ((c : Thread nD τ).loc main_arg1))))
    shapeCasts_S2097152_S2097152x1 (ix2 n (0 : Fin 1)) = _
  rw [col_of_rows]
  rfl

/-- The flags column the region finds: the event flags, as a column. -/
theorem flags_col (c : Dev nD) (n : Fin 2097152) :
    (V m c main_v2 : S2097152x1.Idx → BitVec 32) (ix2 n (0 : Fin 1)) = m ((c : Thread nD τ).loc main_arg2) (ix1 n) := by
  dsimp only [V, V0]
  simp only [hostOps0, hostOps0_1, hostOps0_2, List.flatten_cons, List.flatten_nil, List.append_nil, List.cons_append,
    List.nil_append]
  after_results
  show shapeCast S2097152x1 (m ((c : Thread nD τ).loc main_arg2)) shapeCasts_S2097152_S2097152x1 (ix2 n (0 : Fin 1)) = _
  exact col_of_rows _ _ n

end Cert.KernelIdeal.Acc

end
-- ==== Proof.KernelRow.lean ====
/-
  The body's arithmetic read at an index, over the extended reals.

  Row `r` of a block's per-row value is the row's log-likelihood: the lane sum of the masked `log (1 - h + ε)` terms is the
  log-survival, and the lane sum of the hazards weighted by "lane `k` is the row's bin" is the hazard at that bin, the bin being
  a word between 0 and 31. The block's partial sum is the sum over its 8192 rows of `0 -` that value, which is its negation; the
  accumulator's update adds it; the output is the accumulator times the constant word; the reset stores zero.
-/
import proofs.«413996_j34892314313021_3_alg».proof.Proof.Gen.KernelIdeal.Skeleton
import proofs.«413996_j34892314313021_3_alg».proof.Proof.Algebra
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Row

open Cert.KernelIdeal Cert.KernelIdeal.Gen Cert.Hazard

/-- A vector reshaped to one column, at row `r`: the vector at `r`. -/
theorem col_of_vec {α : Type} (v : S8192.Idx → α) (h : S8192.ShapeCasts S8192x1) (r : Fin 8192) :
    shapeCast S8192x1 v h (ix2 r (0 : Fin 1)) = v (ix1 r) :=
  shapeCast_apply v h (ix2 r 0) (ix1 r) (by
    rw [Shape.rowMajor_val_one, Shape.rowMajor_val_two]; show r.val = r.val * 1 + 0; omega)

/-- A column broadcast along the lanes, at `(r, k)`: the column at row `r`. -/
theorem row_bcast {α : Type} (w : S8192x1.Idx → α) (h : S8192x1.Broadcasts S8192x32) (r : Fin 8192) (k : Fin 32) :
    broadcastTo S8192x32 w h (ix2 r k) = w (ix2 r (0 : Fin 1)) :=
  broadcastTo_apply w h (ix2 r k) (ix2 r 0) (fun a => by
    match a with
    | ⟨0, _⟩ => show r.val = if (8192 : Nat) = 1 then 0 else r.val; rw [if_neg (by decide)]
    | ⟨1, _⟩ => show 0 = if (1 : Nat) = 1 then 0 else k.val; rw [if_pos rfl])

/-- The lane counter: at every index, the lane's number. -/
theorem lane_iota_fn (h : S8192x32.Iotas .tc 32 [1]) :
    iota .tc S8192x32 32 [1] h = fun i => BitVec.ofNat 32 (i 1).val := by
  funext i
  show BitVec.ofNat 32 (0 * 32 + (i 1).val) = _
  rw [Nat.zero_mul, Nat.zero_add]

/-- A sum over the 32 lanes, at row `r`. -/
theorem lane_sum (src : FVec Ideal S8192x32 .f32) (h : S8192x32.Reduces [1] S8192) (hφ : FKind.Formats .f32)
    (hacc : (0x00000000#32 : BitVec 32) = 0x00000000#32) (r : Fin 8192) :
    multiReduction .add [1] S8192 src 0x00000000#32 h hφ hacc (ix1 r) = ∑ k : Fin 32, src (ix2 r k) := by
  refine (Ideal.multiReduction_add_single src 0x00000000#32 h hφ hacc (ix1 r)).trans ?_
  refine Finset.sum_congr rfl fun k _ => congrArg src (funext fun a => Fin.ext ?_)
  match a with
  | ⟨0, _⟩ => rfl
  | ⟨1, _⟩ => rfl

/-- A sum over the 8192 rows of a column, at its one index. -/
theorem rows_sum (src : FVec Ideal S8192x1 .f32) (h : S8192x1.Reduces [0] S1) (hφ : FKind.Formats .f32)
    (hacc : (0x00000000#32 : BitVec 32) = 0x00000000#32) (j : S1.Idx) :
    multiReduction .add [0] S1 src 0x00000000#32 h hφ hacc j = ∑ r : Fin 8192, src (ix2 r (0 : Fin 1)) := by
  refine (Ideal.multiReduction_add_single src 0x00000000#32 h hφ hacc j).trans ?_
  refine Finset.sum_congr rfl fun r _ => congrArg src (funext fun a => Fin.ext ?_)
  match a with
  | ⟨0, _⟩ => rfl
  | ⟨1, _⟩ =>
    have hj : (j 0).val < 1 := (j 0).isLt
    show (j 0).val = 0
    omega

/-- An integer converted to a float is, over the extended reals, the integer read signed. -/
theorem sitofp_ideal {w : Nat} (b : BitVec w) : FloatOps.sitofp (F := Ideal) .f32 b = (((b.toInt : ℤ) : ℝ) : EReal) := rfl

/-- ROW `r` OF THE PER-ROW VALUE is the row's log-likelihood, of the row's 32 scores, its (already clipped) bin `t r`, a word
    between 0 and 31, and its event flag. -/
theorem pay4_apply (x : Vec Ideal S8192x32 .f32) (t e : Vec Ideal S8192x1 .i32) (r : Fin 8192)
    (hb0 : 0 ≤ (t (ix2 r (0 : Fin 1))).toInt) (hb1 : (t (ix2 r (0 : Fin 1))).toInt ≤ 31) :
    k0_pay4 (F := Ideal) x t e (ix2 r (0 : Fin 1)) = rowLogLik (fun k => x (ix2 r k)) (t (ix2 r 0)) (e (ix2 r 0)) := by
  unfold k0_pay4
  dsimp only
  rw [lane_iota_fn]
  simp only [addf, subf, mulf, log, logistic, select, cmpi, broadcast, sitofp, extui]
  simp only [col_of_vec, shapeCast_self]
  rw [lane_sum, lane_sum]
  simp only [addf, subf, mulf, log, logistic, select, cmpi, broadcast, sitofp, extui, row_bcast]
  simp only [Ideal.addf_def, Ideal.subf_def, Ideal.mulf_def, Ideal.log_def, Ideal.logistic_def, Ideal.ofBits_def, sitofp_ideal,
    Ideal.ofBits_zero_f32]
  have hs := sum_onehot (fun k => Ideal.logistic (x (ix2 r k))) (t (ix2 r (0 : Fin 1))) hb0 hb1
  beta_reduce at hs
  have hs' : ∑ k : Fin 32, Ideal.logistic (x (ix2 r k)) *
      (((((IntOp.cmpi .eq (BitVec.ofNat 32 (ix2 r k (1 : Fin 2)).val) (t (ix2 r (0 : Fin 1)))).setWidth 32).toInt : ℤ) : ℝ) : EReal)
      = Ideal.logistic (x (ix2 r (col (t (ix2 r (0 : Fin 1)))))) := hs
  rw [hs']
  rfl

/-- A one-element vector reshaped to `[1, 1]`, at its one index: the vector's element. -/
theorem unit_of_vec {α : Type} (v : S1.Idx → α) (h : S1.ShapeCasts S1x1) (i : S1x1.Idx) :
    shapeCast S1x1 v h i = v (ix1 (0 : Fin 1)) :=
  shapeCast_apply v h i (ix1 0) (by
    rw [Shape.rowMajor_val_one, Shape.rowMajor_val_two]
    have h0 : (i 0).val < 1 := (i 0).isLt
    have h1 : (i 1).val < 1 := (i 1).isLt
    show 0 = (i 0).val * 1 + (i 1).val
    omega)

/-- THE ACCUMULATOR'S UPDATE: the earlier contents plus the sum over the block's rows of minus the per-row value. -/
theorem pay1_apply (v39 : FVec Ideal S8192x1 .f32) (a : Vec Ideal S1x1 .f32) (i : S1x1.Idx) :
    k0_pay1 (F := Ideal) v39 (Scalar.ofBits .f32 0x00000000#32) a i = a i + ∑ r : Fin 8192, -(v39 (ix2 r (0 : Fin 1))) := by
  unfold k0_pay1
  dsimp only
  rw [shapeCast_self]
  simp only [addf]
  rw [unit_of_vec, rows_sum]
  simp only [subf, broadcast, Ideal.addf_def, Ideal.subf_def]
  refine congrArg (a i + ·) (Finset.sum_congr rfl fun r _ => ?_)
  show Ideal.ofBits .f32 0x00000000#32 - v39 (ix2 r 0) = -(v39 (ix2 r 0))
  rw [Ideal.ofBits_zero_f32, zero_sub]

/-- THE OUTPUT WORD: the accumulator times the constant word. -/
theorem pay2_apply (v : Vec Ideal S1x1 .f32) (i : S1x1.Idx) :
    k0_pay2 (F := Ideal) v i = v i * Ideal.ofBits .f32 0x35000000#32 := rfl

/-- THE RESET stores zero. -/
theorem pay3_apply (i : S1x1.Idx) : k0_pay3 (F := Ideal) i = 0 := by
  unfold k0_pay3
  rw [shapeCast_self]
  exact Ideal.ofBits_zero_f32

end Cert.KernelIdeal.Row

end
-- ==== Proof.KernelTotal.lean ====
/-
  The kernel's result is the mean loss.

  A block's per-row value at row `r` of point `t` is the log-likelihood of row `t · 8192 + r` of the argument arrays; so a point adds
  to the accumulator the sum over its 8192 rows of minus that, and after the last point the accumulator holds the sum over the 256
  blocks of those sums, which is the sum over all `2²¹` rows. The output is that total times `2⁻²¹`.
-/
import proofs.«413996_j34892314313021_3_alg».proof.Proof.KernelBlocks
import proofs.«413996_j34892314313021_3_alg».proof.Proof.KernelRow

noncomputable section

open scoped BigOperators
open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Hazard

variable (m : (ℓ : Loc nD τ sig) → Buf (Elt Ideal) ℓ)

/-- The three argument arrays as launched: scores, time bins, event flags. -/
abbrev argX (c : Dev nD) : SX.Idx → EReal := m ((c : Thread nD τ).loc main_arg0)
abbrev argT (c : Dev nD) : SN.Idx → BitVec 32 := m ((c : Thread nD τ).loc main_arg1)
abbrev argE (c : Dev nD) : SN.Idx → BitVec 32 := m ((c : Thread nD τ).loc main_arg2)

/-- Row `r` of point `t`'s per-row value is the log-likelihood of row `t · 8192 + r` of the arguments. -/
theorem row_eq (c : Dev nD) (t : Fin cfg0.N) (r : Fin 8192) :
    k0_pay4 (F := Ideal) (xblk m c t) (tblk m c t) (eblk m c t) (ix2 r (0 : Fin 1))
      = rowAt (argX m c) (argT m c) (argE m c) (rowOf t r) := by
  have ht : tblk m c t (ix2 r (0 : Fin 1)) = bin (argT m c (ix1 (rowOf t r))) := (tblk_apply m c t r).trans (bins_col m c _)
  have he : eblk m c t (ix2 r (0 : Fin 1)) = argE m c (ix1 (rowOf t r)) := (eblk_apply m c t r).trans (flags_col m c _)
  rw [Row.pay4_apply _ _ _ r (by rw [ht]; exact (bin_range _).1) (by rw [ht]; exact (bin_range _).2), ht, he]
  unfold rowAt
  refine congrArg (fun xr : Fin 32 → EReal => rowLogLik xr _ _) (funext fun k => ?_)
  exact (xblk_apply m c t r k).trans (congrFun (V_main_arg0 m c) _)

/-- What point `s` adds to the accumulator: minus the log-likelihoods of its 8192 rows, summed (zero past the grid). -/
def blockSum (c : Dev nD) (s : ℕ) : EReal :=
  if hs : s < cfg0.N then ∑ r : Fin 8192, -(rowAt (argX m c) (argT m c) (argE m c) (rowOf ⟨s, hs⟩ r)) else 0

/-- One update of the accumulator adds the point's block sum. -/
theorem step_apply (c : Dev nD) (t : Fin cfg0.N) (a : Vec Ideal S1x1 .f32) (i : S1x1.Idx) :
    step (xblk m c t) (tblk m c t) (eblk m c t) a i = a i + blockSum m c t.val := by
  show k0_pay1 (F := Ideal) (k0_pay4 (xblk m c t) (tblk m c t) (eblk m c t)) (Scalar.ofBits .f32 0x00000000#32) a i = _
  rw [Row.pay1_apply]
  unfold blockSum
  rw [dif_pos t.isLt]
  refine congrArg (a i + ·) (Finset.sum_congr rfl fun r _ => congrArg Neg.neg ?_)
  exact row_eq m c t r

/-- The running total after point `n` is the sum of the block sums of points `0 … n`. -/
theorem total_apply (c : Dev nD) : ∀ (n : ℕ) (h : n < cfg0.N) (i : S1x1.Idx),
    total m c n h i = ∑ s ∈ Finset.range (n + 1), blockSum m c s
  | 0, h, i => by
    show step (xblk m c ⟨0, h⟩) (tblk m c ⟨0, h⟩) (eblk m c ⟨0, h⟩) (k0_pay3 (F := Ideal)) i = _
    rw [step_apply, Row.pay3_apply, zero_add, Finset.sum_range_one]
  | n + 1, h, i => by
    show step (xblk m c ⟨n + 1, h⟩) (tblk m c ⟨n + 1, h⟩) (eblk m c ⟨n + 1, h⟩) (total m c n (Nat.lt_of_succ_lt h)) i = _
    rw [step_apply, total_apply c n _ i]
    exact (Finset.sum_range_succ (blockSum m c) (n + 1)).symm

/-- The sum of all 256 block sums is the sum over all rows. -/
theorem sum_blocks (c : Dev nD) :
    ∑ s ∈ Finset.range (255 + 1), blockSum m c s = ∑ n : Fin 2097152, -(rowAt (argX m c) (argT m c) (argE m c) n) := by
  have hN : cfg0.N = 256 := N_0
  rw [Finset.sum_range, sum_rows_eq_sum_tiles]
  refine Finset.sum_congr rfl fun s _ => ?_
  unfold blockSum
  rw [dif_pos (by rw [hN]; exact s.isLt)]
  rfl

/-- THE KERNEL'S RESULT is the mean loss. -/
theorem result_eq (c : Dev nD) :
    shapeCast S_ (result m c) shapeCasts_S1x1_S_ = meanLoss (argX m c) (argT m c) (argE m c) := by
  funext j
  rw [shapeCast_apply (s := S1x1) (t := S_) (result m c : S1x1.Idx → EReal) shapeCasts_S1x1_S_ j (ix2 (0 : Fin 1) (0 : Fin 1)) (by
    show (S1x1.rowMajor (ix2 (0 : Fin 1) (0 : Fin 1))).val = (S_.rowMajor j).val
    rw [Shape.rowMajor_val_two]
    have h := (S_.rowMajor j).isLt
    have e : S_.numel = 1 := rfl
    show 0 * 1 + 0 = _
    omega)]
  show k0_pay2 (F := Ideal) (total m c 255 tLast.isLt) (ix2 (0 : Fin 1) (0 : Fin 1)) = _
  rw [Row.pay2_apply, total_apply, sum_blocks]
  rfl

end Cert.KernelIdeal.Acc

end
-- ==== Proof.RefValue.lean ====
/-
  The reference's result is the mean loss.

  Stage by stage: the hazards are `1 / (1 + exp (-x))`, the logistic function; the clipped bin is the larger of the bin and 0, then
  the smaller of that and 31; the log-survival is the masked lane sum; `take_along_axis` at the clipped bin reads the hazard at the
  column the bin names — the bin is between 0 and 31, so the wrap of a negative index leaves it, the in-bounds guard is true and the
  fill value is never taken; the event term selects on the flag; the mean is the sum over the rows divided by their number, `2²¹`,
  which is the product with `2⁻²¹`.
-/
import proofs.«413996_j34892314313021_3_alg».proof.Proof.RefReadP
import proofs.«413996_j34892314313021_3_alg».proof.Proof.Algebra
import Idealize.ShloMosaic.Lib.ValueIdx
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Gen Cert.ReferenceIdeal.ReadP Cert.Hazard

/-- The scores array, and a word array, at the extended reals. -/
abbrev XA : Type := (⟨S2097152x32, .f32⟩ : BufTy).Contents (Elt Ideal)
abbrev WA : Type := (⟨S2097152, .i32⟩ : BufTy).Contents (Elt Ideal)

/-- The word `1.0` denotes 1. -/
theorem ofBits_one : Ideal.ofBits .f32 0x3F800000#32 = 1 := by
  simp [Ideal.ofBits, Ideal.ieee, -EReal.coe_mul]; norm_num

/-- The hazards: `1 / (1 + exp (-x))` is the logistic function. -/
theorem hazard_eq (x0 : XA) (i : S2097152x32.Idx) : val_main_v5 (F := Ideal) x0 i = Ideal.logistic (x0 i) := by
  rw [val_main_v5_apply, val_main_v4_apply, val_main_cst_0_apply, val_main_v3_apply, val_main_v2_apply, val_main_cst_apply,
    val_main_v1_apply, val_main_v0_apply]
  simp only [Ideal.hostDivf_def, Ideal.addf_def, Ideal.hostUnary_exp_def, Ideal.hostNegf_def, Ideal.negf_def, Ideal.ofBits_def,
    ofBits_one]
  rfl

/-- The clipped bin. -/
theorem bin_eq (x1 : WA) (i : S2097152.Idx) : val_main_v6 (F := Ideal) x1 i = bin (x1 i) := by
  rw [val_main_v6_apply, val_main_call0_v4_apply, val_main_call0_v3_apply, val_main_c_1_apply, val_main_call0_v2_apply,
    val_main_call0_v1_apply, val_main_call0_v0_apply, val_main_c_apply]
  rfl

/-- Index bookkeeping: lane `k` of row `n`, and the row of an index. -/
theorem idx_lane (n : Fin 2097152) (k : Fin 32) : idx_main_v19 (ix1 n) k = ix2 n k :=
  funext fun a => Fin.ext (by match a with | ⟨0, _⟩ => rfl | ⟨1, _⟩ => rfl)

theorem idx_row (i : S2097152x32.Idx) : idx_main_v9 (idx_main_v11 i) = ix1 (i 0) :=
  funext fun a => Fin.ext (by match a with | ⟨0, _⟩ => rfl)

/-- The masked lane sum is the log-survival. -/
theorem logSurv_eq (x0 : XA) (x1 : WA) (n : Fin 2097152) :
    val_main_v19 (F := Ideal) x0 x1 (ix1 n) = logSurv (fun k => x0 (ix2 n k)) (bin (x1 (ix1 n))) := by
  rw [val_main_v19_apply, val_main_cst_5_apply]
  simp only [val_main_v18_apply, val_main_v12_apply, val_main_v10_apply, val_main_v8_apply, val_main_v7_apply, val_main_v11_apply,
    val_main_v9_apply, bin_eq, val_main_v17_apply, val_main_v16_apply, val_main_v14_apply, val_main_v13_apply,
    val_main_cst_2_apply, hazard_eq, val_main_v15_apply, val_main_cst_3_apply, val_main_call1_v1_apply,
    val_main_call1_v0_apply, val_main_cst_4_apply, Ideal.ofBits_def, Ideal.addf_def, Ideal.subf_def, Ideal.hostUnary_log_def,
    Ideal.ofBits_zero_f32, zero_add, idx_lane, idx_row]
  rfl

/-- The batched gather reads, on the batching axis, the result's own row … -/
theorem opIdx0 (idx : IVec S2097152x1x1 32) (n : Fin 2097152) :
    (gather_S2097152x32_S2097152x1x1_S2097152x1_n_1_0_0_1_2_11.operandIdx (ix2 n (0 : Fin 1)) idx 0).val = n.val := by
  show gather_S2097152x32_S2097152x1x1_S2097152x1_n_1_0_0_1_2_11.start _ idx 0 + gather_S2097152x32_S2097152x1x1_S2097152x1_n_1_0_0_1_2_11.batchCoord _ 0 + gather_S2097152x32_S2097152x1x1_S2097152x1_n_1_0_0_1_2_11.offCoord _ 0 = n.val
  have hb : (0 : Fin 2) ∈ (gather_S2097152x32_S2097152x1x1_S2097152x1_n_1_0_0_1_2_11).operandBatchingDims := List.mem_singleton.mpr rfl
  rw [GatherDims.start_batching _ _ idx 0 hb, GatherDims.offCoord_eq_zero _ _ 0 (fun h => ((GatherDims.mem_sKept _ 0).1 h).2 hb)]
  rw [Nat.zero_add, Nat.add_zero]
  unfold GatherDims.batchCoord
  rw [dif_pos hb]
  rfl

/-- … and, on the indexed axis, the start index read signed and clamped into `[0, 31]`. -/
theorem opIdx1 (idx : IVec S2097152x1x1 32) (n : Fin 2097152) :
    (gather_S2097152x32_S2097152x1x1_S2097152x1_n_1_0_0_1_2_11.operandIdx (ix2 n (0 : Fin 1)) idx 1).val = min (idx (ix3 n (0 : Fin 1) (0 : Fin 1))).toInt.toNat 31 := by
  show gather_S2097152x32_S2097152x1x1_S2097152x1_n_1_0_0_1_2_11.start _ idx 1 + gather_S2097152x32_S2097152x1x1_S2097152x1_n_1_0_0_1_2_11.batchCoord _ 1 + gather_S2097152x32_S2097152x1x1_S2097152x1_n_1_0_0_1_2_11.offCoord _ 1 = _
  have hnb : (1 : Fin 2) ∉ (gather_S2097152x32_S2097152x1x1_S2097152x1_n_1_0_0_1_2_11).operandBatchingDims := by decide
  have hc : (1 : Fin 2) ∈ (gather_S2097152x32_S2097152x1x1_S2097152x1_n_1_0_0_1_2_11).collapsedSliceDims := List.mem_singleton.mpr rfl
  rw [GatherDims.batchCoord_eq_zero _ _ 1 hnb, GatherDims.offCoord_eq_zero _ _ 1 (fun h => ((GatherDims.mem_sKept _ 1).1 h).1 hc)]
  simp only [Nat.add_zero]
  unfold GatherDims.start
  rw [dif_pos (show (1 : Fin 2) ∈ (gather_S2097152x32_S2097152x1x1_S2097152x1_n_1_0_0_1_2_11).startIndexMap from List.mem_singleton.mpr rfl)]
  have hsi : gather_S2097152x32_S2097152x1x1_S2097152x1_n_1_0_0_1_2_11.siIdx (ix2 n (0 : Fin 1)) ⟨List.idxOf (1 : Fin 2) (gather_S2097152x32_S2097152x1x1_S2097152x1_n_1_0_0_1_2_11).startIndexMap,
      List.idxOf_lt_length_iff.2 (List.mem_singleton.mpr rfl)⟩ = ix3 n (0 : Fin 1) (0 : Fin 1) := by
    funext b; refine Fin.ext ?_
    match b with
    | ⟨0, _⟩ => rfl
    | ⟨1, _⟩ => rfl
    | ⟨2, _⟩ => rfl
  rw [hsi]
  rfl

/-- So `take_along_axis` at row `n` reads the table at row `n`, at the column the index names. -/
theorem take_apply {α : Type} (x : S2097152x32.Idx → α) (idx : IVec S2097152x1x1 32) (n : Fin 2097152) :
    Host.gather gather_S2097152x32_S2097152x1x1_S2097152x1_n_1_0_0_1_2_11 x idx (ix2 n (0 : Fin 1))
      = x (ix2 n ⟨min (idx (ix3 n (0 : Fin 1) (0 : Fin 1))).toInt.toNat 31, by omega⟩) := by
  unfold Host.gather
  refine congrArg x (funext fun a => Fin.ext ?_)
  match a with
  | ⟨0, _⟩ => exact opIdx0 idx n
  | ⟨1, _⟩ => exact opIdx1 idx n

/-- Index bookkeeping: the row of a `[rows, 1, 1]` index. -/
theorem idx_wrap (i : S2097152x1x1.Idx) : idx_main_v20 (idx_main_call2_v5 i) = ix1 (i 0) :=
  funext fun a => Fin.ext (by
    have h1 : (i 1).val < 1 := (i 1).isLt
    have h2 : (i 2).val < 1 := (i 2).isLt
    match a with
    | ⟨0, _⟩ => show (((i 0).val * 1 + (i 1).val) * 1 + (i 2).val) / 1 = (i 0).val; omega)

/-- The index after the wrap of negatives is the clipped bin itself. -/
theorem wrap_eq (x1 : WA) (i : S2097152x1x1.Idx) : val_main_call2_v5 (F := Ideal) x1 i = bin (x1 (ix1 (i 0))) := by
  rw [val_main_call2_v5_apply, val_main_call2_v4_apply, val_main_call2_v1_apply, val_main_call2_v0_apply, val_main_call2_c_apply,
    val_main_call2_v3_apply, val_main_call2_v2_apply, val_main_call2_c_0_apply, val_main_v20_apply, bin_eq, idx_wrap]
  exact select_wrap _ (bin_range _).1

/-- The in-bounds guard is true. -/
theorem guard_eq (x1 : WA) (j : S2097152x1.Idx) : val_main_call2_v12 (F := Ideal) x1 j = 1#1 := by
  unfold val_main_call2_v12
  rw [Host.reduce_eq_foldl]
  refine foldl_andi_one _ (fun i => ?_) _ _ rfl
  rw [val_main_call2_v11_apply, val_main_call2_v7_apply, val_main_call2_v10_apply, val_main_call2_v6_apply,
    val_main_call2_c_2_apply, val_main_call2_v9_apply, val_main_call2_v8_apply, val_main_call2_c_1_apply, wrap_eq,
    sge_zero _ (bin_range _).1, sle_31 _ (bin_range _).2]
  rfl

/-- Index bookkeeping: row `n` of the `[rows, 1]` column. -/
theorem idx_unrow (n : Fin 2097152) : idx_main_v22 (ix1 n) = ix2 n (0 : Fin 1) :=
  funext fun a => Fin.ext (by
    match a with
    | ⟨0, _⟩ => show n.val / 1 = n.val; omega
    | ⟨1, _⟩ => rfl)

/-- The gathered value is the hazard at the clipped bin's column. -/
theorem pick_eq (x0 : XA) (x1 : WA) (n : Fin 2097152) :
    val_main_v22 (F := Ideal) x0 x1 (ix1 n) = Ideal.logistic (x0 (ix2 n (col (bin (x1 (ix1 n)))))) := by
  rw [val_main_v22_apply, idx_unrow, val_main_v21_apply, guard_eq, select_one]
  unfold val_main_call2_v13
  rw [take_apply, hazard_eq]
  refine congrArg (fun k : Fin 32 => Ideal.logistic (x0 (ix2 n k))) (Fin.ext ?_)
  show min (val_main_call2_v5 (F := Ideal) x1 (ix3 n (0 : Fin 1) (0 : Fin 1))).toInt.toNat 31 = min (bin (x1 (ix1 n))).toInt.toNat 31
  rw [wrap_eq]

/-- The event term. -/
theorem event_eq (x0 : XA) (x1 x2 : WA) (n : Fin 2097152) :
    val_main_v33 (F := Ideal) x0 x1 x2 (ix1 n) = eventTerm (fun k => x0 (ix2 n k)) (bin (x1 (ix1 n))) (x2 (ix1 n)) := by
  rw [val_main_v33_apply, val_main_v24_apply, val_main_v23_apply, val_main_c_6_apply, val_main_v27_apply, val_main_v26_apply,
    val_main_v25_apply, val_main_cst_7_apply, val_main_v32_apply, val_main_v31_apply, val_main_v29_apply, val_main_v28_apply,
    val_main_cst_8_apply, val_main_v30_apply, val_main_cst_9_apply, pick_eq]
  rfl

/-- THE REFERENCE'S RESULT is the mean loss. -/
theorem ref_eq (x0 : XA) (x1 x2 : WA) : val_main_v37 (F := Ideal) x0 x1 x2 = meanLoss x0 x1 x2 := by
  funext i
  rw [val_main_v37_apply, val_main_v36_apply, val_main_cst_10_apply, val_main_cst_11_apply]
  simp only [Ideal.hostDivf_def, Ideal.ofBits_def, Ideal.ofBits_zero_f32, zero_add]
  rw [div_rows, sum_idx1]
  have hrow : ∀ n : Fin 2097152, val_main_v35 (F := Ideal) x0 x1 x2 (ix1 n) = -(rowAt x0 x1 x2 n) := by
    intro n
    rw [val_main_v35_apply, val_main_v34_apply, logSurv_eq, event_eq]
    rfl
  simp only [hrow]
  rfl

end Cert.ReferenceIdeal.RefValue

end
-- ==== Proof.lean ====
/-
  The discrete-hazard survival loss: the kernel and its reference compute one function over the extended reals.

  The kernel streams the `2²¹ × 32` scores in 256 blocks of 8192 rows. Per row it forms the hazards `h = 1 / (1 + exp (-x))`, sums
  `log (1 - h + ε)` over the bins strictly before the row's clipped time bin, reads the hazard at the clipped bin as the lane sum of
  the hazards against the indicator of that bin, adds `log (h + ε)` or `log (1 - h + ε)` by the event flag, and negates; it sums the
  rows of a block, accumulates the blocks' sums in a one-word accumulator, and at the last block multiplies by `2⁻²¹`. The reference
  computes the same per-row value with the hazard at the clipped bin read by a gather, sums over all rows at once and divides by
  `2²¹`.

  The two agree on every extended real input, finite or not: the indicator-weighted sum is the gathered hazard because the clipped
  bin is between 0 and 31 (`x · 0 = 0` and `x · 1 = x` hold for every extended real `x`); the sum over all rows is the sum over the
  blocks of the blocks' sums because addition of extended reals is commutative and associative; `0 - x` is `-x`; and dividing by
  `2²¹` is multiplying by `2⁻²¹`, the two constant words denoting those powers of two exactly. So the precondition is never opened.

  The frames of the two kernel programs are their generated frame certificates; the reference's frame is its run with the result
  dropped. The ideal pass rewrote nothing, so `preserves` is `True`.
-/
import proofs.«413996_j34892314313021_3_alg».proof.Defs
import proofs.«413996_j34892314313021_3_alg».proof.Proof.Gen.Kernel
import proofs.«413996_j34892314313021_3_alg».proof.Proof.Gen.Kernel.Frame
import proofs.«413996_j34892314313021_3_alg».proof.Proof.Gen.KernelIdeal
import proofs.«413996_j34892314313021_3_alg».proof.Proof.Gen.KernelIdeal.Frame
import proofs.«413996_j34892314313021_3_alg».proof.Proof.Gen.ReferenceIdeal
import proofs.«413996_j34892314313021_3_alg».proof.Proof.Gen.Pre_finite_inputs
import proofs.«413996_j34892314313021_3_alg».proof.Proof.KernelTotal
import proofs.«413996_j34892314313021_3_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs end with the scalar result at the mean loss of the argument arrays, which agree. -/
theorem algebraic : Cert.algebraic_KernelIdeal_ReferenceIdeal := by
  intro m ρ m' ρ' _ hagree
  refine ⟨fun c => Cert.Hazard.meanLoss (Cert.KernelIdeal.Acc.argX m c) (Cert.KernelIdeal.Acc.argT m c) (Cert.KernelIdeal.Acc.argE m c),
    ?_, ?_⟩
  · exact (θ_run Cert.KernelIdeal.defs _ _).mono
      (fun _ h c => ⟨(h c).1.trans (Cert.KernelIdeal.Acc.result_eq m c), (h c).2⟩)
      (Cert.KernelIdeal.Acc.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v37_eq, Cert.ReferenceIdeal.RefValue.ref_eq, (hagree c).1, (hagree c).2.1,
      (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
